-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S128x3 .f32) (main_arg9 : FVec F S3 .f32) (main_v33 : IVec S_ 1) : IVec S_ 1 :=
  let main_v34 : FVec F S128x3 .f32 := Host.absf main_arg8
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x3 .f32) (main_arg9 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1000000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x3 .f32) (main_arg9 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x128 : Shape := ⟨2, ![1000000, 128]⟩
abbrev S1x128 : Shape := ⟨2, ![1, 128]⟩
abbrev S5000x128 : Shape := ⟨2, ![5000, 128]⟩
abbrev S1x3 : Shape := ⟨2, ![1, 3]⟩
abbrev S100000x3 : Shape := ⟨2, ![100000, 3]⟩
abbrev S5000x3 : Shape := ⟨2, ![5000, 3]⟩

abbrev nBuf : Space → Nat
  | .hbm => 62
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x3, .f32⟩
  | .hbm, ⟨9, _⟩ => ⟨S3, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x128, .f32⟩
  | .hbm, ⟨36, _⟩ => ⟨S_, .f32⟩
  | .hbm, ⟨37, _⟩ => ⟨S100000x128, .f32⟩
  | .hbm, ⟨38, _⟩ => ⟨S1000000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1000000, .i32⟩
  | .hbm, ⟨46, _⟩ => ⟨S1000000, .i1⟩
  | .hbm, ⟨47, _⟩ => ⟨S_, .i32⟩
  | .hbm, ⟨48, _⟩ => ⟨S1000000, .i32⟩
  | .hbm, ⟨49, _⟩ => ⟨S1000000, .i32⟩
  | .hbm, ⟨50, _⟩ => ⟨S1000000, .i32⟩
  | .hbm, ⟨51, _⟩ => ⟨S1000000x1, .i32⟩
  | .hbm, ⟨52, _⟩ => ⟨S1000000x128, .f32⟩
  | .hbm, ⟨53, _⟩ => ⟨S_, .f32⟩
  | .hbm, ⟨54, _⟩ => ⟨S100000x128, .f32⟩
  | .hbm, ⟨55, _⟩ => ⟨S1000000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S1x3, .f32⟩
  | .hbm, ⟨61, _⟩ => ⟨S100000x3, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x3, .f32⟩
  | .local _ .vmem, ⟨17, _⟩ => ⟨S1x3, .f32⟩
  | .local _ .vmem, ⟨18, _⟩ => ⟨S5000x3, .f32⟩
  | .local _ .vmem, ⟨19, _⟩ => ⟨S5000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x3.size a ≤ S128x3.size a
  hwx1_5 : ∀ i : grid1.Coords, EltTy.bits .f32 = 32 ∨ (Rect.block (s := S128x3) S128x3.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x3.size a ≤ S1x3.size a
  hwx1_6 : ∀ i : grid1.Coords, EltTy.bits .f32 = 32 ∨ (Rect.block (s := S1x3) S1x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x3.size a ≤ S100000x3.size a
  hwx1_7 : ∀ i : grid1.Coords, EltTy.bits .f32 = 32 ∨ (Rect.block (s := S100000x3) S5000x3.size (cc1_transform_7 i) (hinb1_7 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S5000x3.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩
abbrev S100000x3 : Shape := ⟨2, ![100000, 3]⟩
abbrev S1x3 : Shape := ⟨2, ![1, 3]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x3, .f32⟩
  | .hbm, ⟨9, _⟩ => ⟨S3, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .f32⟩
  | .hbm, ⟨23, _⟩ => ⟨S_, .f32⟩
  | .hbm, ⟨24, _⟩ => ⟨S100000x128, .f32⟩
  | .hbm, ⟨25, _⟩ => ⟨S1000000x1, .i32⟩
  | .hbm, ⟨26, _⟩ => ⟨S100000x128, .f32⟩
  | .hbm, ⟨27, _⟩ => ⟨S_, .f32⟩
  | .hbm, ⟨28, _⟩ => ⟨S1000000, .f32⟩
  | .hbm, ⟨29, _⟩ => ⟨S_, .f32⟩
  | .hbm, ⟨30, _⟩ => ⟨S100000, .f32⟩
  | .hbm, ⟨31, _⟩ => ⟨S1000000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x128, .f32⟩
  | .hbm, ⟨57, _⟩ => ⟨S_, .f32⟩
  | .hbm, ⟨58, _⟩ => ⟨S100000x128, .f32⟩
  | .hbm, ⟨59, _⟩ => ⟨S1000000x1, .i32⟩
  | .hbm, ⟨60, _⟩ => ⟨S100000x128, .f32⟩
  | .hbm, ⟨61, _⟩ => ⟨S_, .f32⟩
  | .hbm, ⟨62, _⟩ => ⟨S1000000, .f32⟩
  | .hbm, ⟨63, _⟩ => ⟨S_, .f32⟩
  | .hbm, ⟨64, _⟩ => ⟨S100000, .f32⟩
  | .hbm, ⟨65, _⟩ => ⟨S1000000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x3, .f32⟩
  | .hbm, ⟨83, _⟩ => ⟨S1x3, .f32⟩
  | .hbm, ⟨84, _⟩ => ⟨S100000x3, .f32⟩
  | .hbm, ⟨85, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.KernelHost.lean ====
/-
  The kernel program's host side: what each region is entered with, as functions of the arguments.

  Before region 0 the host computes the neighbour mean of the node features: the source indices wrapped into
  range, the features gathered along the edges, summed per destination node, and scaled by the reciprocal of
  the in-degree clamped below by one. Region 0 is entered with that mean, the features, the first layer's
  weights and its bias as a row. Between the regions the host computes the same mean of region 0's OUTPUT,
  with the same edge list and the same reciprocal counts (no buffer of them is written in between), and
  region 1 is entered with it, region 0's output, the second layer's weights and bias row, and the classifier's.
-/
import proofs.«121714_j30081950941187_1_alg».proof.Proof.Gen.KernelIdeal.Frame
import Idealize.ShloMosaic.Lib.StableHlo.Run

set_option maxRecDepth 16384

noncomputable section

namespace Cert.KernelNet

open Cert.KernelIdeal Cert.KernelIdeal.Gen Idealize.ShloMosaic Idealize.ShloMosaic.TcCoe Idealize.SL.Sem Idealize.ShloMosaic.StableHlo

variable {F : FTy → Type} [FloatOps F]

/-- The edges' source nodes. -/
def srcOf (e : (⟨S2x1000000, .i32⟩ : BufTy).Contents (Elt F)) : (⟨S1000000, .i32⟩ : BufTy).Contents (Elt F) :=
  shapeCast _ (extractStridedSlice S1x1000000 ![0, 0] e slices_S2x1000000_S1x1000000_0_0) shapeCasts_S1x1000000_S1000000

/-- The edges' destination nodes. -/
def dstOf (e : (⟨S2x1000000, .i32⟩ : BufTy).Contents (Elt F)) : (⟨S1000000, .i32⟩ : BufTy).Contents (Elt F) :=
  shapeCast _ (extractStridedSlice S1x1000000 ![1, 0] e slices_S2x1000000_S1x1000000_1_0) shapeCasts_S1x1000000_S1000000

/-- Each node's in-degree: ones summed per destination node. -/
def countOf (e : (⟨S2x1000000, .i32⟩ : BufTy).Contents (Elt F)) : (⟨S100000, .f32⟩ : BufTy).Contents (Elt F) :=
  Host.scatterAdd scatter_S100000_S1000000x1_S1000000_n_0_0_1
    (broadcastInDim S100000 ![] bcast_S_S100000 (constant S_ .f32 0x00000000#32))
    (broadcastInDim S1000000x1 ![0] bcast_S1000000_S1000000x1_0 (dstOf e))
    (broadcastInDim S1000000 ![] bcast_S_S1000000 (constant S_ .f32 0x3F800000#32))

/-- One at every node. -/
def nodeOnes : (⟨S100000, .f32⟩ : BufTy).Contents (Elt F) :=
  broadcastInDim S100000 ![] bcast_S_S100000 (constant S_ .f32 0x3F800000#32)

/-- The reciprocal of each node's in-degree clamped below by one, as a column. -/
def invCount (e : (⟨S2x1000000, .i32⟩ : BufTy).Contents (Elt F)) : (⟨S100000x1, .f32⟩ : BufTy).Contents (Elt F) :=
  shapeCast _ (Host.divf (nodeOnes (F := F)) (maximumf (countOf e) (nodeOnes (F := F)))) shapeCasts_S100000_S100000x1

/-- The features gathered along the edges and summed per destination node. -/
def aggOf (x : (⟨S100000x128, .f32⟩ : BufTy).Contents (Elt F)) (e : (⟨S2x1000000, .i32⟩ : BufTy).Contents (Elt F)) :
    (⟨S100000x128, .f32⟩ : BufTy).Contents (Elt F) :=
  Host.scatterAdd scatter_S100000x128_S1000000x1_S1000000x128_1_0_0_1
    (broadcastInDim S100000x128 ![] bcast_S_S100000x128 (constant S_ .f32 0x00000000#32))
    (broadcastInDim S1000000x1 ![0] bcast_S1000000_S1000000x1_0 (dstOf e))
    (Host.gather gather_S100000x128_S1000000x1_S1000000x128_1_0_n_n_0_1_1128 x
      (broadcastInDim S1000000x1 ![0] bcast_S1000000_S1000000x1_0
        (select (cmpi .slt (srcOf e) (broadcastInDim S1000000 ![] bcast_S_S1000000 (constantI S_ 32 0#32)))
          (addi (srcOf e) (broadcastInDim S1000000 ![] bcast_S_S1000000 (constantI S_ 32 100000#32))) (srcOf e))))

/-- The kernel program's neighbour mean: the per-node sums scaled by the reciprocal counts. -/
def meanK (x : (⟨S100000x128, .f32⟩ : BufTy).Contents (Elt F)) (e : (⟨S2x1000000, .i32⟩ : BufTy).Contents (Elt F)) :
    (⟨S100000x128, .f32⟩ : BufTy).Contents (Elt F) :=
  mulf (aggOf x e) (broadcastInDim S100000x128 ![0, 1] bcast_S100000x1_S100000x128_0_1 (invCount e))

variable (m : (ℓ : Loc nD τ sig) → Buf (Elt F) ℓ) (ρ : Dev nD → PrngReg)

/-! ## Region 0's entry contents -/

theorem V1_mean (c : Dev nD) : V1 m ρ c main_v24 = meanK (m ((c : Thread nD τ).loc main_arg0)) (m ((c : Thread nD τ).loc main_arg1)) := by
  show StableHlo.after hostOps0 (W0 m ρ c) (Proc.devRef .tc main_v24) = _
  after_results_simp
  rfl

theorem V1_x (c : Dev nD) : V1 m ρ c main_arg0 = m ((c : Thread nD τ).loc main_arg0) := by
  show StableHlo.after hostOps0 (W0 m ρ c) (Proc.devRef .tc main_arg0) = _
  after_results_simp <;> rfl

theorem V1_wl (c : Dev nD) : V1 m ρ c main_arg2 = m ((c : Thread nD τ).loc main_arg2) := by
  show StableHlo.after hostOps0 (W0 m ρ c) (Proc.devRef .tc main_arg2) = _
  after_results_simp <;> rfl

theorem V1_wr (c : Dev nD) : V1 m ρ c main_arg4 = m ((c : Thread nD τ).loc main_arg4) := by
  show StableHlo.after hostOps0 (W0 m ρ c) (Proc.devRef .tc main_arg4) = _
  after_results_simp <;> rfl

theorem V1_bias (c : Dev nD) : V1 m ρ c main_v25 = shapeCast _ (m ((c : Thread nD τ).loc main_arg3)) shapeCasts_S128_S1x128 := by
  show StableHlo.after hostOps0 (W0 m ρ c) (Proc.devRef .tc main_v25) = _
  after_results_simp <;> rfl

/-! ## What region 0 leaves for the host stretch between the regions -/

/-- The destination nodes' buffer is as the first stretch left it. -/
theorem W2_dst (c : Dev nD) : W2 m ρ c (Proc.devRef .tc main_v3) = dstOf (m ((c : Thread nD τ).loc main_arg1)) := by
  rw [W2_of_ne m ρ c main_v3 (by decide)]
  show StableHlo.after hostOps0 (W0 m ρ c) (Proc.devRef .tc main_v3) = _
  after_results_simp <;> rfl

/-- The source nodes' buffer is as the first stretch left it. -/
theorem W2_src (c : Dev nD) : W2 m ρ c (Proc.devRef .tc main_v1) = srcOf (m ((c : Thread nD τ).loc main_arg1)) := by
  rw [W2_of_ne m ρ c main_v1 (by decide)]
  show StableHlo.after hostOps0 (W0 m ρ c) (Proc.devRef .tc main_v1) = _
  after_results_simp <;> rfl

/-- The reciprocal counts' buffer is as the first stretch left it. -/
theorem W2_inv (c : Dev nD) : W2 m ρ c (Proc.devRef .tc main_v12) = invCount (m ((c : Thread nD τ).loc main_arg1)) := by
  rw [W2_of_ne m ρ c main_v12 (by decide)]
  show StableHlo.after hostOps0 (W0 m ρ c) (Proc.devRef .tc main_v12) = _
  after_results_simp <;> rfl

/-- An argument no window of region 0 stages is as launched. -/
theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results_simp <;> rfl
theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp <;> rfl
theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl
theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp <;> rfl
theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results_simp <;> rfl

/-- Region 0's output buffer holds what its write-backs leave. -/
theorem W2_h1 (c : Dev nD) : W2 m ρ c (Proc.devRef .tc main_v26) = (dat0 (V1 m ρ) c).arrAt 5 cfg0.N :=
  W2_arr m ρ c 5

end Cert.KernelNet

end
-- ==== Proof.KernelEntry.lean ====
/-
  What region 1 is entered with, as functions of the arguments and of region 0's output array: the host
  stretch between the regions reads the edge list's two rows and the reciprocal counts from the buffers the
  first stretch left (no operation and no window of region 0 writes them), gathers region 0's output along the
  edges, sums per destination node and scales: the neighbour mean of region 0's output.
-/
import proofs.«121714_j30081950941187_1_alg».proof.Proof.KernelHost

set_option maxRecDepth 16384

noncomputable section

namespace Cert.KernelNet

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Region 1's entry contents -/

theorem V3_mean (c : Dev nD) :
    V3 m ρ c main_v38 = meanK ((dat0 (V1 m ρ) c).arrAt 5 cfg0.N) (m ((c : Thread nD τ).loc main_arg1)) := by
  show StableHlo.after hostOps1 (W2 m ρ c) (Proc.devRef .tc main_v38) = _
  after_results_simp
  rw [W2_dst, W2_src, W2_inv, W2_h1]
  rfl

theorem V3_h1 (c : Dev nD) : V3 m ρ c main_v26 = (dat0 (V1 m ρ) c).arrAt 5 cfg0.N := by
  show StableHlo.after hostOps1 (W2 m ρ c) (Proc.devRef .tc main_v26) = _
  after_results
  exact W2_h1 m ρ c

theorem V3_wl (c : Dev nD) : V3 m ρ c main_arg5 = m ((c : Thread nD τ).loc main_arg5) := by
  show StableHlo.after hostOps1 (W2 m ρ c) (Proc.devRef .tc main_arg5) = _
  after_results
  exact W2_arg5 m ρ c

theorem V3_wr (c : Dev nD) : V3 m ρ c main_arg7 = m ((c : Thread nD τ).loc main_arg7) := by
  show StableHlo.after hostOps1 (W2 m ρ c) (Proc.devRef .tc main_arg7) = _
  after_results
  exact W2_arg7 m ρ c

theorem V3_wc (c : Dev nD) : V3 m ρ c main_arg8 = m ((c : Thread nD τ).loc main_arg8) := by
  show StableHlo.after hostOps1 (W2 m ρ c) (Proc.devRef .tc main_arg8) = _
  after_results
  exact W2_arg8 m ρ c

theorem V3_bias (c : Dev nD) : V3 m ρ c main_v39 = shapeCast _ (m ((c : Thread nD τ).loc main_arg6)) shapeCasts_S128_S1x128 := by
  show StableHlo.after hostOps1 (W2 m ρ c) (Proc.devRef .tc main_v39) = _
  after_results
  rw [W2_arg6]
  rfl

theorem V3_cbias (c : Dev nD) : V3 m ρ c main_v40 = shapeCast _ (m ((c : Thread nD τ).loc main_arg9)) shapeCasts_S3_S1x3 := by
  show StableHlo.after hostOps1 (W2 m ρ c) (Proc.devRef .tc main_v40) = _
  after_results
  rw [W2_arg9]
  rfl

end Cert.KernelNet

end
-- ==== Proof.SageSpec.lean ====
/-
  A two-layer GraphSAGE network with a linear classifier, written as functions of its arrays, index by
  index, over the extended reals.

  One layer takes a neighbour-mean array `a` and a root array `x` (both nodes × 128), two 128 × 128
  weights and a bias row, and returns, at node `r` and channel `q`,
      max (Σₖ a[r,k]·wl[k,q] + Σₖ x[r,k]·wr[k,q] + b[q]) 0.
  The classifier returns Σₖ h[r,k]·wc[k,q] + bc[q] over three classes. The network applies the layer twice,
  the second time to the first layer's output and ITS neighbour mean, then the classifier. The neighbour-mean
  operator (gather along edges, sum per destination node, divide by the in-degree clamped below by one) is a
  parameter here: both programs compute it by the same host operations but for the last step, and the law
  that joins the two last steps is `mul_inv_count`: a·(1/c) = a/c for c = max cnt 1, which is never zero,
  so the law holds for every extended real a and cnt (no finiteness is needed).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- nodes × channels -/
abbrev NodeFeat : Shape := ⟨2, ![100000, 128]⟩
/-- channels × channels -/
abbrev Weight : Shape := ⟨2, ![128, 128]⟩
/-- channels × classes -/
abbrev ClsWeight : Shape := ⟨2, ![128, 3]⟩
/-- nodes × classes -/
abbrev Logits : Shape := ⟨2, ![100000, 3]⟩

/-- The value of the all-zero float word (it is 0; both programs carry the same word, so it is never opened). -/
abbrev zeroWord : EReal := Ideal.ofBits .f32 0x00000000#32

/-- One layer at node `r`, channel `q`. -/
def layerAt (a x : NodeFeat.Idx → EReal) (wl wr : Weight.Idx → EReal) (b : Fin 128 → EReal)
    (r : Fin 100000) (q : Fin 128) : EReal :=
  max ((∑ k : Fin 128, a (ix2 r k) * wl (ix2 k q)) + (∑ k : Fin 128, x (ix2 r k) * wr (ix2 k q)) + b q) zeroWord

/-- One layer as an array. -/
def layer (a x : NodeFeat.Idx → EReal) (wl wr : Weight.Idx → EReal) (b : Fin 128 → EReal) : NodeFeat.Idx → EReal :=
  fun i => layerAt a x wl wr b ⟨(i 0).val, idx2_lt0 i⟩ ⟨(i 1).val, idx2_lt1 i⟩

theorem layer_ix2 (a x : NodeFeat.Idx → EReal) (wl wr : Weight.Idx → EReal) (b : Fin 128 → EReal)
    (r : Fin 100000) (q : Fin 128) : layer a x wl wr b (ix2 r q) = layerAt a x wl wr b r q := rfl

/-- The classifier at node `r`, class `q`. -/
def clsAt (h : NodeFeat.Idx → EReal) (wc : ClsWeight.Idx → EReal) (bc : Fin 3 → EReal)
    (r : Fin 100000) (q : Fin 3) : EReal :=
  (∑ k : Fin 128, h (ix2 r k) * wc (ix2 k q)) + bc q

/-- The classifier as an array. -/
def cls (h : NodeFeat.Idx → EReal) (wc : ClsWeight.Idx → EReal) (bc : Fin 3 → EReal) : Logits.Idx → EReal :=
  fun i => clsAt h wc bc ⟨(i 0).val, idx2_lt0 i⟩ ⟨(i 1).val, idx2_lt1 i⟩

theorem cls_ix2 (h : NodeFeat.Idx → EReal) (wc : ClsWeight.Idx → EReal) (bc : Fin 3 → EReal)
    (r : Fin 100000) (q : Fin 3) : cls h wc bc (ix2 r q) = clsAt h wc bc r q := rfl

/-- The whole network over a neighbour-mean operator `mean` of a feature array and the edge list `e`. -/
def net {E : Type} (mean : (NodeFeat.Idx → EReal) → E → NodeFeat.Idx → EReal)
    (x : NodeFeat.Idx → EReal) (e : E)
    (wl1 : Weight.Idx → EReal) (b1 : Fin 128 → EReal) (wr1 : Weight.Idx → EReal)
    (wl2 : Weight.Idx → EReal) (b2 : Fin 128 → EReal) (wr2 : Weight.Idx → EReal)
    (wc : ClsWeight.Idx → EReal) (bc : Fin 3 → EReal) : Logits.Idx → EReal :=
  cls (layer (mean (layer (mean x e) x wl1 wr1 b1) e) (layer (mean x e) x wl1 wr1 b1) wl2 wr2 b2) wc bc

/-- The float word of 1.0 is the real number one. -/
theorem one_word : Ideal.ofBits .f32 0x3F800000#32 = 1 := by
  simp [Ideal.ofBits, Ideal.ieee, -EReal.coe_mul]
  norm_num

/-- Scaling by the reciprocal of a clamped count is dividing by it: the count clamped below by one is at
    least one, so it is not zero, and off zero the quotient is the product with the inverse. -/
theorem mul_inv_count (a cnt : EReal) : a * Ideal.div 1 (max cnt 1) = Ideal.div a (max cnt 1) := by
  have hc : max cnt 1 ≠ 0 := ne_of_gt (lt_of_lt_of_le zero_lt_one (le_max_right cnt 1))
  unfold Ideal.div
  rw [if_neg hc, if_neg hc, one_mul]

end Cert.Sage

end
-- ==== Proof.KernelBody.lean ====
/-
  What each kernel body leaves in its output block, at one index.

  Region 0's body: the block's row p of the neighbour mean and of the root features, each multiplied into
  a 128 × 128 weight (a product into a zero accumulator is the plain sum over the contracted axis), the
  two sums added, the bias row added, and the result clamped below by zero.
  Region 1's body: the same layer, then row p of that layer multiplied into the 128 × 3 classifier weight,
  plus the classifier's bias row. Changes of float format are the identity on the extended reals.
-/
import proofs.«121714_j30081950941187_1_alg».proof.Proof.Gen.KernelIdeal.Frame
import proofs.«121714_j30081950941187_1_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelNet

open Cert.KernelIdeal Cert.KernelIdeal.Gen Idealize.ShloMosaic Idealize.ShloMosaic.ValueIdx

/-- The offset (0, 0) is the zero offset. -/
theorem zeroOff : (![0, 0] : Fin 2 → Nat) = fun _ => 0 := funext fun a => by fin_cases a <;> rfl

/-! ## The 5000 × 128 by 128 × 128 product at an index -/

/-- The left operand's row coordinate is the output's row. -/
theorem lhs_d128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction index. -/
theorem lhs_d128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem rhs_d128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_d128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 by 128 × 128 product into the zero accumulator, at row `p` and column `q`, is
    Σₖ a[p,k]·w[k,q]. -/
theorem mm128_apply {φ₁ φ₂ : FTy} (a : FVec Ideal S5000x128 φ₁) (w : FVec Ideal S128x128 φ₂) (p : Fin 5000) (q : Fin 128) :
    FloatOps.matmul dot_S5000x128_S128x128_S5000x128_1_0_0_1_n_n none a w (constant (F := Ideal) S5000x128 .f32 0x00000000#32) (ix2 p q)
      = ∑ k : Fin 128, a (ix2 p k) * w (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_d128_0 _ _
    | ⟨1, _⟩ => exact (lhs_d128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_d128_0 _ _).trans hk
    | ⟨1, _⟩ => exact rhs_d128_1 _ _)
  rw [el, er]

/-- A row of 128 entries repeated down 5000 rows, read at (p, q), is its entry q. -/
theorem bias128_apply {α : Type} (b : S1x128.Idx → α) (h : S1x128.Broadcasts S5000x128) (p : Fin 5000) (q : Fin 128) :
    broadcastTo S5000x128 b h (ix2 p q) = b (ix2 0 q) :=
  broadcastTo_apply b h (ix2 p q) (ix2 0 q) (fun a => by
    match a with
    | ⟨0, _⟩ => rfl
    | ⟨1, _⟩ => rfl)

/-! ## The 5000 × 128 by 128 × 3 product at an index -/

/-- The left operand's row coordinate is the output's row. -/
theorem lhs_d3_0 (i : S5000x3.Idx) (q : dot_S5000x128_S128x3_S5000x3_1_0_0_1_n_n.contr.Idx) :
    (dot_S5000x128_S128x3_S5000x3_1_0_0_1_n_n.lhsIdx i q 0).val = (i 0).val := by
  unfold DotDims.lhsIdx
  rw [dif_neg (show ¬(0 : Fin S5000x128.rank) ∈ dot_S5000x128_S128x3_S5000x3_1_0_0_1_n_n.lhsBatch by decide), dif_pos (show (0 : Fin S5000x128.rank) ∈ dot_S5000x128_S128x3_S5000x3_1_0_0_1_n_n.lhsNonContracting by decide)]
  rfl
/-- The left operand's column coordinate is the contraction index. -/
theorem lhs_d3_1 (i : S5000x3.Idx) (q : dot_S5000x128_S128x3_S5000x3_1_0_0_1_n_n.contr.Idx) :
    (dot_S5000x128_S128x3_S5000x3_1_0_0_1_n_n.lhsIdx i q 1).val = (q ⟨0, by decide⟩).val :=
  dot_S5000x128_S128x3_S5000x3_1_0_0_1_n_n.lhsIdx_val_of_single rfl i q
/-- The right operand's row coordinate is the contraction index. -/
theorem rhs_d3_0 (i : S5000x3.Idx) (q : dot_S5000x128_S128x3_S5000x3_1_0_0_1_n_n.contr.Idx) :
    (dot_S5000x128_S128x3_S5000x3_1_0_0_1_n_n.rhsIdx i q 0).val = (q ⟨0, by decide⟩).val :=
  dot_S5000x128_S128x3_S5000x3_1_0_0_1_n_n.rhsIdx_val_of_single rfl i q
/-- The right operand's column coordinate is the output's column. -/
theorem rhs_d3_1 (i : S5000x3.Idx) (q : dot_S5000x128_S128x3_S5000x3_1_0_0_1_n_n.contr.Idx) :
    (dot_S5000x128_S128x3_S5000x3_1_0_0_1_n_n.rhsIdx i q 1).val = (i 1).val := by
  unfold DotDims.rhsIdx
  rw [dif_neg (show ¬(1 : Fin S128x3.rank) ∈ dot_S5000x128_S128x3_S5000x3_1_0_0_1_n_n.rhsBatch by decide), dif_pos (show (1 : Fin S128x3.rank) ∈ dot_S5000x128_S128x3_S5000x3_1_0_0_1_n_n.rhsNonContracting by decide)]
  rfl

/-- A 5000 × 128 by 128 × 3 product into the zero accumulator, at row `p` and column `q`, is
    Σₖ a[p,k]·w[k,q]. -/
theorem mm3_apply {φ₁ φ₂ : FTy} (a : FVec Ideal S5000x128 φ₁) (w : FVec Ideal S128x3 φ₂) (p : Fin 5000) (q : Fin 3) :
    FloatOps.matmul dot_S5000x128_S128x3_S5000x3_1_0_0_1_n_n none a w (constant (F := Ideal) S5000x3 .f32 0x00000000#32) (ix2 p q)
      = ∑ k : Fin 128, a (ix2 p k) * w (ix2 k q) := by
  rw [Ideal.matmul_constant_zero_apply, ← Equiv.sum_comp (ValueIdx.contrEquiv1 dot_S5000x128_S128x3_S5000x3_1_0_0_1_n_n 128 rfl rfl).symm]
  refine Finset.sum_congr rfl fun k _ => ?_
  have hk := ValueIdx.contrEquiv1_symm_val dot_S5000x128_S128x3_S5000x3_1_0_0_1_n_n 128 rfl rfl k
  have el : dot_S5000x128_S128x3_S5000x3_1_0_0_1_n_n.lhsIdx (ix2 p q) ((ValueIdx.contrEquiv1 dot_S5000x128_S128x3_S5000x3_1_0_0_1_n_n 128 rfl rfl).symm k) = ix2 p k := funext fun a => Fin.ext (by
    match a with
    | ⟨0, _⟩ => exact lhs_d3_0 _ _
    | ⟨1, _⟩ => exact (lhs_d3_1 _ _).trans hk)
  have er : dot_S5000x128_S128x3_S5000x3_1_0_0_1_n_n.rhsIdx (ix2 p q) ((ValueIdx.contrEquiv1 dot_S5000x128_S128x3_S5000x3_1_0_0_1_n_n 128 rfl rfl).symm k) = ix2 k q := funext fun a => Fin.ext (by
    match a with
    | ⟨0, _⟩ => exact (rhs_d3_0 _ _).trans hk
    | ⟨1, _⟩ => exact rhs_d3_1 _ _)
  rw [el, er]

/-- A row of 3 entries repeated down 5000 rows, read at (p, q), is its entry q. -/
theorem bias3_apply {α : Type} (b : S1x3.Idx → α) (h : S1x3.Broadcasts S5000x3) (p : Fin 5000) (q : Fin 3) :
    broadcastTo S5000x3 b h (ix2 p q) = b (ix2 0 q) :=
  broadcastTo_apply b h (ix2 p q) (ix2 0 q) (fun a => by
    match a with
    | ⟨0, _⟩ => rfl
    | ⟨1, _⟩ => rfl)

/-! ## The stored values at an index -/

/-- The layer's stored value at row `p`, channel `q`:
    max (Σₖ a[p,k]·wl[k,q] + Σₖ x[p,k]·wr[k,q] + b[q]) 0. The reshapes to the same shape and the changes of
    float format are the identity; the clamp is against the all-zero float word. -/
theorem k0_pay1_apply (v0 v3 : FVec Ideal S5000x128 .f32) (v5 v7 : FVec Ideal S128x128 .f32) (v9 : FVec Ideal S1x128 .f32)
    (p : Fin 5000) (q : Fin 128) :
    k0_pay1 (F := Ideal) v0 v3 v5 v7 v9 (ix2 p q)
      = max ((∑ k : Fin 128, v0 (ix2 p k) * v5 (ix2 k q)) + (∑ k : Fin 128, v3 (ix2 p k) * v7 (ix2 k q)) + v9 (ix2 0 q))
          Cert.Sage.zeroWord := by
  unfold k0_pay1
  have e0 : shapeCast S5000x128 v0 shapeCasts_S5000x128_S5000x128 = v0 := shapeCast_self _ _
  have e9 : shapeCast S1x128 v9 shapeCasts_S1x128_S1x128 = v9 := shapeCast_self _ _
  rw [e0, e9]
  show max ((FloatOps.matmul dot_S5000x128_S128x128_S5000x128_1_0_0_1_n_n none (truncf .bf16 v0 bitsLt_bf16_f32) (truncf .bf16 v5 bitsLt_bf16_f32)
          (constant (F := Ideal) S5000x128 .f32 0x00000000#32) (ix2 p q)
        + FloatOps.matmul dot_S5000x128_S128x128_S5000x128_1_0_0_1_n_n none (truncf .bf16 v3 bitsLt_bf16_f32) (truncf .bf16 v7 bitsLt_bf16_f32)
          (constant (F := Ideal) S5000x128 .f32 0x00000000#32) (ix2 p q))
        + broadcastTo S5000x128 v9 broadcasts_S1x128_S5000x128 (ix2 p q)) Cert.Sage.zeroWord = _
  refine congrArg (max · Cert.Sage.zeroWord) ?_
  refine congrArg₂ (· + ·) (congrArg₂ (· + ·) ?_ ?_) ?_
  · exact mm128_apply _ _ p q
  · exact mm128_apply _ _ p q
  · exact bias128_apply v9 _ p q

/-- The classifier's stored value at row `p`, class `q`: Σⱼ h[p,j]·wc[j,q] + bc[q], where h is the layer's
    stored value (the classifier's body computes the layer by the same operations). -/
theorem k1_pay1_apply (v0 v3 : FVec Ideal S5000x128 .f32) (v6 v8 : FVec Ideal S128x128 .f32) (v10 : FVec Ideal S1x128 .f32)
    (v19 : FVec Ideal S128x3 .f32) (v21 : FVec Ideal S1x3 .f32) (p : Fin 5000) (q : Fin 3) :
    k1_pay1 (F := Ideal) v0 v3 v6 v8 v10 v19 v21 (ix2 p q)
      = (∑ j : Fin 128, max ((∑ k : Fin 128, v0 (ix2 p k) * v6 (ix2 k j)) + (∑ k : Fin 128, v3 (ix2 p k) * v8 (ix2 k j))
          + v10 (ix2 0 j)) Cert.Sage.zeroWord * v19 (ix2 j q)) + v21 (ix2 0 q) := by
  unfold k1_pay1
  have e3 : shapeCast S5000x128 v3 shapeCasts_S5000x128_S5000x128 = v3 := shapeCast_self _ _
  have e21 : shapeCast S1x3 v21 shapeCasts_S1x3_S1x3 = v21 := shapeCast_self _ _
  rw [e3, e21]
  show FloatOps.matmul dot_S5000x128_S128x3_S5000x3_1_0_0_1_n_n none (truncf .bf16 (k0_pay1 (F := Ideal) v0 v3 v6 v8 v10) bitsLt_bf16_f32)
        (truncf .bf16 v19 bitsLt_bf16_f32) (constant (F := Ideal) S5000x3 .f32 0x00000000#32) (ix2 p q)
      + broadcastTo S5000x3 v21 broadcasts_S1x3_S5000x3 (ix2 p q) = _
  refine congrArg₂ (· + ·) ?_ ?_
  · refine (mm3_apply _ _ p q).trans ?_
    refine Finset.sum_congr rfl fun j _ => ?_
    exact congrArg (· * v19 (ix2 j q)) (k0_pay1_apply v0 v3 v6 v8 v10 p j)
  · exact bias3_apply v21 _ p q

/-! ## The output blocks at an index -/

/-- Region 0's output block at row `p`, channel `q`. -/
theorem out0_apply (x0 x1 : FVec Ideal S5000x128 .f32) (x2 : FVec Ideal S128x128 .f32) (x3 : FVec Ideal S1x128 .f32)
    (x4 : FVec Ideal S128x128 .f32) (p : Fin 5000) (q : Fin 128) :
    out0_5 (F := Ideal) x0 x1 x2 x3 x4 (ix2 p q)
      = max ((∑ k : Fin 128, x0 (ix2 p k) * x2 (ix2 k q)) + (∑ k : Fin 128, x1 (ix2 p k) * x4 (ix2 k q))
          + x3 (ix2 0 q)) Cert.Sage.zeroWord := by
  unfold out0_5
  rw [View.canon_unit_zero zeroOff]
  simp only [View.ld_unit_zero (S := S5000x128) zeroOff, View.ld_unit_zero (S := S128x128) zeroOff,
    View.ld_unit_zero (S := S1x128) zeroOff]
  exact k0_pay1_apply x0 x1 x2 x4 x3 p q

/-- Region 1's output block at row `p`, class `q`. -/
theorem out1_apply (x0 x1 : FVec Ideal S5000x128 .f32) (x2 : FVec Ideal S128x128 .f32) (x3 : FVec Ideal S1x128 .f32)
    (x4 : FVec Ideal S128x128 .f32) (x5 : FVec Ideal S128x3 .f32) (x6 : FVec Ideal S1x3 .f32) (p : Fin 5000) (q : Fin 3) :
    out1_7 (F := Ideal) x0 x1 x2 x3 x4 x5 x6 (ix2 p q)
      = (∑ j : Fin 128, max ((∑ k : Fin 128, x0 (ix2 p k) * x2 (ix2 k j)) + (∑ k : Fin 128, x1 (ix2 p k) * x4 (ix2 k j))
          + x3 (ix2 0 j)) Cert.Sage.zeroWord * x5 (ix2 j q)) + x6 (ix2 0 q) := by
  unfold out1_7
  rw [View.canon_unit_zero zeroOff]
  simp only [View.ld_unit_zero (S := S5000x128) zeroOff, View.ld_unit_zero (S := S128x128) zeroOff,
    View.ld_unit_zero (S := S1x128) zeroOff, View.ld_unit_zero (S := S128x3) zeroOff, View.ld_unit_zero (S := S1x3) zeroOff]
  exact k1_pay1_apply x0 x1 x2 x4 x3 x5 x6 p q

end Cert.KernelNet

end
-- ==== Proof.KernelArrays.lean ====
/-
  Each region's output array after its run, as one function of the arrays the region is entered with.

  Region 0's grid has 20 points; point t stages rows 5000·t … 5000·t + 4999 of the neighbour mean and of the
  root features and the whole weights and bias, and writes back rows 5000·t … of the output. Row by row the
  block product is the whole-array product, so what point t writes back is block t of ONE function of the
  entry arrays (the layer of the specification), and the 20 blocks tile the 100000 rows: the array ends
  holding that function. Region 1 is the same over the classifier's 100000 × 3 output.
-/
import proofs.«121714_j30081950941187_1_alg».proof.Proof.KernelBody

noncomputable section

namespace Cert.KernelNet

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 0: the layer -/

/-- Region 0's index maps over its 20 points: the neighbour-mean and root blocks move with the output block along the
    rows, the weights and the bias sit at block 0, and no window moves along the channels. -/
theorem layer_windows : ∀ t : Fin cfg0.N,
    win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0
    ∧ win0_5.index t (0 : Fin 2) ≤ 19 :=
  (by decide +kernel : ∀ t : Fin grid0.N, _)

/-- Every one of the 20 row blocks is some point's output block. -/
theorem layer_rows_onto : ∀ q0 : Fin 20, ∃ t : Fin cfg0.N, win0_5.index t = ![q0.val, 0] :=
  (by decide +kernel : ∀ q0 : Fin 20, ∃ t : Fin grid0.N, win0_5.index t = ![q0.val, 0])

/-- The neighbour-mean block at point t: rows 5000·(block index) … of the neighbour-mean array. -/
theorem mean_block0 (c : Dev nD) (t : Fin cfg0.N) (y : S5000x128.Idx) (i : S100000x128.Idx)
    (h0 : (i 0).val = win0_5.index t (0 : Fin 2) * 5000 + (y 0).val) (h1 : (i 1).val = (y 1).val) :
    (iblk0 (F := Ideal) V c 0 t : FVec Ideal S5000x128 .f32) y = (V c main_v24 : S100000x128.Idx → EReal) i := by
  obtain ⟨e00, e01, -⟩ := layer_windows t
  unfold iblk0
  rw [View.read_apply]
  show V c main_v24 (((cfg0.win 0).blk t).view.emb y) = V c main_v24 i
  refine congrArg _ ?_
  funext a
  apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The root-feature block at point t: the same rows of the root-feature array. -/
theorem root_block0 (c : Dev nD) (t : Fin cfg0.N) (y : S5000x128.Idx) (i : S100000x128.Idx)
    (h0 : (i 0).val = win0_5.index t (0 : Fin 2) * 5000 + (y 0).val) (h1 : (i 1).val = (y 1).val) :
    (iblk0 (F := Ideal) V c 1 t : FVec Ideal S5000x128 .f32) y = (V c main_arg0 : S100000x128.Idx → EReal) i := by
  obtain ⟨-, -, e10, e11, -⟩ := layer_windows t
  unfold iblk0
  rw [View.read_apply]
  show V c main_arg0 (((cfg0.win 1).blk t).view.emb y) = V c main_arg0 i
  refine congrArg _ ?_
  funext a
  apply Fin.ext
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The neighbour weight's block at every point is the whole weight. -/
theorem wl_block0 (c : Dev nD) (t : Fin cfg0.N) (y : S128x128.Idx) :
    (iblk0 (F := Ideal) V c 2 t : FVec Ideal S128x128 .f32) y = (V c main_arg2 : S128x128.Idx → EReal) y := by
  obtain ⟨-, -, -, -, e20, e21, -⟩ := layer_windows t
  unfold iblk0
  rw [View.read_apply]
  show V c main_arg2 (((cfg0.win 2).blk t).view.emb y) = V c main_arg2 y
  refine congrArg _ ?_
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's block at every point is the whole row. -/
theorem bias_block0 (c : Dev nD) (t : Fin cfg0.N) (y : S1x128.Idx) :
    (iblk0 (F := Ideal) V c 3 t : FVec Ideal S1x128 .f32) y = (V c main_v25 : S1x128.Idx → EReal) y := by
  obtain ⟨-, -, -, -, -, -, e30, e31, -⟩ := layer_windows t
  unfold iblk0
  rw [View.read_apply]
  show V c main_v25 (((cfg0.win 3).blk t).view.emb y) = V c main_v25 y
  refine congrArg _ ?_
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The root weight's block at every point is the whole weight. -/
theorem wr_block0 (c : Dev nD) (t : Fin cfg0.N) (y : S128x128.Idx) :
    (iblk0 (F := Ideal) V c 4 t : FVec Ideal S128x128 .f32) y = (V c main_arg4 : S128x128.Idx → EReal) y := by
  obtain ⟨-, -, -, -, -, -, -, -, e40, e41, -⟩ := layer_windows t
  unfold iblk0
  rw [View.read_apply]
  show V c main_arg4 (((cfg0.win 4).blk t).view.emb y) = V c main_arg4 y
  refine congrArg _ ?_
  funext a
  apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Row p of a block product is row r of the whole-array product: if blocks x0, x1 hold row p where the arrays a, x hold
    row r = i 0, and the weight and bias blocks are the whole weights and bias, the block's layer value at (p, q) is
    the arrays' layer at the index i whose channel is q. -/
theorem layer_of_blocks (a x : S100000x128.Idx → EReal) (wl wr : S128x128.Idx → EReal) (b : S1x128.Idx → EReal)
    (x0 x1 : FVec Ideal S5000x128 .f32) (x2 : FVec Ideal S128x128 .f32) (x3 : FVec Ideal S1x128 .f32)
    (x4 : FVec Ideal S128x128 .f32) (p : Fin 5000) (q : Fin 128) (i : S100000x128.Idx) (h1 : (i 1).val = q.val)
    (hx0 : ∀ k : Fin 128, x0 (ix2 p k) = a (ix2 ⟨(i 0).val, idx2_lt0 i⟩ k))
    (hx1 : ∀ k : Fin 128, x1 (ix2 p k) = x (ix2 ⟨(i 0).val, idx2_lt0 i⟩ k))
    (hx2 : ∀ y, x2 y = wl y) (hx3 : ∀ y, x3 y = b y) (hx4 : ∀ y, x4 y = wr y) :
    max ((∑ k : Fin 128, x0 (ix2 p k) * x2 (ix2 k q)) + (∑ k : Fin 128, x1 (ix2 p k) * x4 (ix2 k q))
        + x3 (ix2 0 q)) Cert.Sage.zeroWord
      = Cert.Sage.layer a x wl wr (fun q => b (ix2 0 q)) i := by
  have hq : (⟨(i 1).val, idx2_lt1 i⟩ : Fin 128) = q := Fin.ext h1
  unfold Cert.Sage.layer Cert.Sage.layerAt
  rw [hq]
  refine congrArg₂ max (congrArg₂ (· + ·) (congrArg₂ (· + ·) (Finset.sum_congr rfl fun k _ => ?_) (Finset.sum_congr rfl fun k _ => ?_)) ?_) rfl
  · rw [hx0 k, hx2]
  · rw [hx1 k, hx4]
  · exact hx3 _

/-- What point t writes back is block t of the layer of the entry arrays. -/
theorem layer_flushed (c : Dev nD) (t : Fin cfg0.N) :
    (dat0 (F := Ideal) V c).flushed 5 t = ((cfg0.win 5).blk t).view.read (Elt Ideal)
      (Cert.Sage.layer (V c main_v24) (V c main_arg0) (V c main_arg2) (V c main_arg4) (fun q => V c main_v25 (ix2 0 q))) := by
  show (cfg0.win 5).cut (grid0.coords t) ((dat0 V c).after 5 t) = _
  rw [after0_5]
  funext j
  obtain ⟨p, q, rfl⟩ : ∃ (p : Fin 5000) (q : Fin 128), j = ix2 p q := ⟨j 0, j 1, eq_ix2 j⟩
  refine (out0_apply (iblk0 V c 0 t) (iblk0 V c 1 t) (iblk0 V c 2 t) (iblk0 V c 3 t) (iblk0 V c 4 t) p q).trans ?_
  rw [View.read_apply]
  obtain ⟨-, -, -, -, -, -, -, -, -, -, e51, -⟩ := layer_windows t
  show _ = Cert.Sage.layer (V c main_v24) (V c main_arg0) (V c main_arg2) (V c main_arg4) (fun q => V c main_v25 (ix2 0 q))
      (((cfg0.win 5).blk t).view.emb (ix2 p q))
  have h0 : ((((cfg0.win 5).blk t).view.emb (ix2 p q) : S100000x128.Idx) 0).val = win0_5.index t (0 : Fin 2) * 5000 + p.val := by
    show win0_5.index t (0 : Fin 2) * 5000 + 1 * p.val = win0_5.index t (0 : Fin 2) * 5000 + p.val; omega
  have h1 : ((((cfg0.win 5).blk t).view.emb (ix2 p q) : S100000x128.Idx) 1).val = q.val := by
    show win0_5.index t (1 : Fin 2) * 128 + 1 * q.val = q.val; omega
  exact layer_of_blocks (V c main_v24) (V c main_arg0) (V c main_arg2) (V c main_arg4) (V c main_v25)
    (iblk0 V c 0 t) (iblk0 V c 1 t) (iblk0 V c 2 t) (iblk0 V c 3 t) (iblk0 V c 4 t) p q _ h1
    (fun k => mean_block0 V c t (ix2 p k) _ h0 rfl) (fun k => root_block0 V c t (ix2 p k) _ h0 rfl)
    (wl_block0 V c t) (bias_block0 V c t) (wr_block0 V c t)

/-- An index of the layer's output array is in point t's block iff each coordinate is in the block's range on its axis. -/
theorem mem_layer_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The 20 output blocks tile the 100000 rows: row r is in the block of the point whose block index is r / 5000. -/
theorem layer_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := layer_rows_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_layer_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- Region 0's output array after its run: the layer of its entry arrays. -/
theorem arr0 (c : Dev nD) :
    (dat0 (F := Ideal) V c).arrAt 5 cfg0.N
      = Cert.Sage.layer (V c main_v24) (V c main_arg0) (V c main_arg2) (V c main_arg4) (fun q => V c main_v25 (ix2 0 q)) :=
  (dat0 (F := Ideal) V c).arrAt_eq_of_cover 5 _ (fun t _ => layer_flushed V c t) layer_cover

/-! ## Region 1: the layer, then the classifier -/

/-- Region 1's moving index maps over its 20 points: the neighbour-mean and hidden blocks move with the output block
    along the rows, and none of the three moves along its second axis. -/
theorem cls_moving : ∀ t : Fin cfg1.N,
    win1_0.index t (0 : Fin 2) = win1_7.index t (0 : Fin 2)
    ∧ win1_0.index t (1 : Fin 2) = 0
    ∧ win1_1.index t (0 : Fin 2) = win1_7.index t (0 : Fin 2)
    ∧ win1_1.index t (1 : Fin 2) = 0
    ∧ win1_7.index t (1 : Fin 2) = 0
    ∧ win1_7.index t (0 : Fin 2) ≤ 19 :=
  (by decide +kernel : ∀ t : Fin grid1.N, _)

/-- Region 1's weights and biases sit at block 0 at every point. -/
theorem cls_fixed : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Every one of the 20 row blocks is some point's output block. -/
theorem cls_rows_onto : ∀ q0 : Fin 20, ∃ t : Fin cfg1.N, win1_7.index t = ![q0.val, 0] :=
  (by decide +kernel : ∀ q0 : Fin 20, ∃ t : Fin grid1.N, win1_7.index t = ![q0.val, 0])

/-- The neighbour-mean block at point t: rows 5000·(block index) … of the neighbour-mean array. -/
theorem mean_block1 (c : Dev nD) (t : Fin cfg1.N) (y : S5000x128.Idx) (i : S100000x128.Idx)
    (h0 : (i 0).val = win1_7.index t (0 : Fin 2) * 5000 + (y 0).val) (h1 : (i 1).val = (y 1).val) :
    (iblk1 (F := Ideal) V c 0 t : FVec Ideal S5000x128 .f32) y = (V c main_v38 : S100000x128.Idx → EReal) i := by
  obtain ⟨e00, e01, -⟩ := cls_moving t
  unfold iblk1
  rw [View.read_apply]
  show V c main_v38 (((cfg1.win 0).blk t).view.emb y) = V c main_v38 i
  refine congrArg _ ?_
  funext a
  apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The hidden-feature block at point t: the same rows of the first layer's output array. -/
theorem hidden_block1 (c : Dev nD) (t : Fin cfg1.N) (y : S5000x128.Idx) (i : S100000x128.Idx)
    (h0 : (i 0).val = win1_7.index t (0 : Fin 2) * 5000 + (y 0).val) (h1 : (i 1).val = (y 1).val) :
    (iblk1 (F := Ideal) V c 1 t : FVec Ideal S5000x128 .f32) y = (V c main_v26 : S100000x128.Idx → EReal) i := by
  obtain ⟨-, -, e10, e11, -⟩ := cls_moving t
  unfold iblk1
  rw [View.read_apply]
  show V c main_v26 (((cfg1.win 1).blk t).view.emb y) = V c main_v26 i
  refine congrArg _ ?_
  funext a
  apply Fin.ext
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The neighbour weight's block at every point is the whole weight. -/
theorem wl_block1 (c : Dev nD) (t : Fin cfg1.N) (y : S128x128.Idx) :
    (iblk1 (F := Ideal) V c 2 t : FVec Ideal S128x128 .f32) y = (V c main_arg5 : S128x128.Idx → EReal) y := by
  obtain ⟨e20, e21, -⟩ := cls_fixed t
  unfold iblk1
  rw [View.read_apply]
  show V c main_arg5 (((cfg1.win 2).blk t).view.emb y) = V c main_arg5 y
  refine congrArg _ ?_
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The layer's bias row's block at every point is the whole row. -/
theorem bias_block1 (c : Dev nD) (t : Fin cfg1.N) (y : S1x128.Idx) :
    (iblk1 (F := Ideal) V c 3 t : FVec Ideal S1x128 .f32) y = (V c main_v39 : S1x128.Idx → EReal) y := by
  obtain ⟨-, -, e30, e31, -⟩ := cls_fixed t
  unfold iblk1
  rw [View.read_apply]
  show V c main_v39 (((cfg1.win 3).blk t).view.emb y) = V c main_v39 y
  refine congrArg _ ?_
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The root weight's block at every point is the whole weight. -/
theorem wr_block1 (c : Dev nD) (t : Fin cfg1.N) (y : S128x128.Idx) :
    (iblk1 (F := Ideal) V c 4 t : FVec Ideal S128x128 .f32) y = (V c main_arg7 : S128x128.Idx → EReal) y := by
  obtain ⟨-, -, -, -, e40, e41, -⟩ := cls_fixed t
  unfold iblk1
  rw [View.read_apply]
  show V c main_arg7 (((cfg1.win 4).blk t).view.emb y) = V c main_arg7 y
  refine congrArg _ ?_
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The classifier weight's block at every point is the whole weight. -/
theorem wc_block1 (c : Dev nD) (t : Fin cfg1.N) (y : S128x3.Idx) :
    (iblk1 (F := Ideal) V c 5 t : FVec Ideal S128x3 .f32) y = (V c main_arg8 : S128x3.Idx → EReal) y := by
  obtain ⟨-, -, -, -, -, -, e50, e51, -⟩ := cls_fixed t
  unfold iblk1
  rw [View.read_apply]
  show V c main_arg8 (((cfg1.win 5).blk t).view.emb y) = V c main_arg8 y
  refine congrArg _ ?_
  funext a
  apply Fin.ext
  match a with
  | ⟨0, _⟩ => show win1_5.index t (0 : Fin 2) * 128 + 1 * (y 0).val = (y 0).val; omega
  | ⟨1, _⟩ => show win1_5.index t (1 : Fin 2) * 3 + 1 * (y 1).val = (y 1).val; omega

/-- The classifier's bias row's block at every point is the whole row. -/
theorem cbias_block1 (c : Dev nD) (t : Fin cfg1.N) (y : S1x3.Idx) :
    (iblk1 (F := Ideal) V c 6 t : FVec Ideal S1x3 .f32) y = (V c main_v40 : S1x3.Idx → EReal) y := by
  obtain ⟨-, -, -, -, -, -, -, -, e60, e61⟩ := cls_fixed t
  unfold iblk1
  rw [View.read_apply]
  show V c main_v40 (((cfg1.win 6).blk t).view.emb y) = V c main_v40 y
  refine congrArg _ ?_
  funext a
  apply Fin.ext
  match a with
  | ⟨0, _⟩ => show win1_6.index t (0 : Fin 2) * 1 + 1 * (y 0).val = (y 0).val; omega
  | ⟨1, _⟩ => show win1_6.index t (1 : Fin 2) * 3 + 1 * (y 1).val = (y 1).val; omega

/-- Row p of the block computation is row r of the whole-array computation: if blocks x0, x1 hold row p where the
    arrays a, x hold row r = i 0, and the weight and bias blocks are the whole weights and biases, the block's
    classifier value at (p, q) is the classifier of the arrays' layer at the index i whose class is q. -/
theorem cls_of_blocks (a x : S100000x128.Idx → EReal) (wl wr : S128x128.Idx → EReal) (b : S1x128.Idx → EReal)
    (wc : S128x3.Idx → EReal) (bc : S1x3.Idx → EReal)
    (x0 x1 : FVec Ideal S5000x128 .f32) (x2 : FVec Ideal S128x128 .f32) (x3 : FVec Ideal S1x128 .f32)
    (x4 : FVec Ideal S128x128 .f32) (x5 : FVec Ideal S128x3 .f32) (x6 : FVec Ideal S1x3 .f32)
    (p : Fin 5000) (q : Fin 3) (i : S100000x3.Idx) (h1 : (i 1).val = q.val)
    (hx0 : ∀ k : Fin 128, x0 (ix2 p k) = a (ix2 ⟨(i 0).val, idx2_lt0 i⟩ k))
    (hx1 : ∀ k : Fin 128, x1 (ix2 p k) = x (ix2 ⟨(i 0).val, idx2_lt0 i⟩ k))
    (hx2 : ∀ y, x2 y = wl y) (hx3 : ∀ y, x3 y = b y) (hx4 : ∀ y, x4 y = wr y)
    (hx5 : ∀ y, x5 y = wc y) (hx6 : ∀ y, x6 y = bc y) :
    (∑ j : Fin 128, max ((∑ k : Fin 128, x0 (ix2 p k) * x2 (ix2 k j)) + (∑ k : Fin 128, x1 (ix2 p k) * x4 (ix2 k j))
        + x3 (ix2 0 j)) Cert.Sage.zeroWord * x5 (ix2 j q)) + x6 (ix2 0 q)
      = Cert.Sage.cls (Cert.Sage.layer a x wl wr (fun q => b (ix2 0 q))) wc (fun q => bc (ix2 0 q)) i := by
  have hq : (⟨(i 1).val, idx2_lt1 i⟩ : Fin 3) = q := Fin.ext h1
  unfold Cert.Sage.cls Cert.Sage.clsAt
  rw [hq]
  refine congrArg₂ (· + ·) (Finset.sum_congr rfl fun j _ => ?_) (hx6 _)
  rw [Cert.Sage.layer_ix2, hx5]
  unfold Cert.Sage.layerAt
  refine congrArg₂ (· * ·) (congrArg₂ max (congrArg₂ (· + ·) (congrArg₂ (· + ·) (Finset.sum_congr rfl fun k _ => ?_) (Finset.sum_congr rfl fun k _ => ?_)) ?_) rfl) rfl
  · rw [hx0 k, hx2]
  · rw [hx1 k, hx4]
  · exact hx3 _

/-- What point t writes back is block t of the classifier of the layer of the entry arrays. -/
theorem cls_flushed (c : Dev nD) (t : Fin cfg1.N) :
    (dat1 (F := Ideal) V c).flushed 7 t = ((cfg1.win 7).blk t).view.read (Elt Ideal)
      (Cert.Sage.cls (Cert.Sage.layer (V c main_v38) (V c main_v26) (V c main_arg5) (V c main_arg7) (fun q => V c main_v39 (ix2 0 q)))
        (V c main_arg8) (fun q => V c main_v40 (ix2 0 q))) := by
  show (cfg1.win 7).cut (grid1.coords t) ((dat1 V c).after 7 t) = _
  rw [after1_7]
  funext j
  obtain ⟨p, q, rfl⟩ : ∃ (p : Fin 5000) (q : Fin 3), j = ix2 p q := ⟨j 0, j 1, eq_ix2 j⟩
  refine (out1_apply (iblk1 V c 0 t) (iblk1 V c 1 t) (iblk1 V c 2 t) (iblk1 V c 3 t) (iblk1 V c 4 t) (iblk1 V c 5 t) (iblk1 V c 6 t) p q).trans ?_
  rw [View.read_apply]
  obtain ⟨-, -, -, -, e71, -⟩ := cls_moving t
  show _ = Cert.Sage.cls (Cert.Sage.layer (V c main_v38) (V c main_v26) (V c main_arg5) (V c main_arg7) (fun q => V c main_v39 (ix2 0 q)))
      (V c main_arg8) (fun q => V c main_v40 (ix2 0 q)) (((cfg1.win 7).blk t).view.emb (ix2 p q))
  have h0 : ((((cfg1.win 7).blk t).view.emb (ix2 p q) : S100000x3.Idx) 0).val = win1_7.index t (0 : Fin 2) * 5000 + p.val := by
    show win1_7.index t (0 : Fin 2) * 5000 + 1 * p.val = win1_7.index t (0 : Fin 2) * 5000 + p.val; omega
  have h1 : ((((cfg1.win 7).blk t).view.emb (ix2 p q) : S100000x3.Idx) 1).val = q.val := by
    show win1_7.index t (1 : Fin 2) * 3 + 1 * q.val = q.val; omega
  exact cls_of_blocks (V c main_v38) (V c main_v26) (V c main_arg5) (V c main_arg7) (V c main_v39) (V c main_arg8) (V c main_v40)
    (iblk1 V c 0 t) (iblk1 V c 1 t) (iblk1 V c 2 t) (iblk1 V c 3 t) (iblk1 V c 4 t) (iblk1 V c 5 t) (iblk1 V c 6 t) p q _ h1
    (fun k => mean_block1 V c t (ix2 p k) _ h0 rfl) (fun k => hidden_block1 V c t (ix2 p k) _ h0 rfl)
    (wl_block1 V c t) (bias_block1 V c t) (wr_block1 V c t) (wc_block1 V c t) (cbias_block1 V c t)

/-- An index of the classifier's output array is in point t's block iff each coordinate is in the block's range on its axis. -/
theorem mem_cls_block (t : Fin cfg1.N) (i : S100000x3.Idx) :
    i ∈ ((cfg1.win 7).blk t).view.set ↔ ∀ a : Fin 2, win1_7.index t a * S5000x3.size a ≤ (i a).val ∧ (i a).val < win1_7.index t a * S5000x3.size a + S5000x3.size a := by
  show i ∈ ((View.whole main_v41).slice (win1_7.rect t)).set ↔ _
  rw [View.set_slice_whole, Rect.mem_set_unit]
  exact Iff.rfl

/-- The 20 output blocks tile the 100000 rows: row r is in the block of the point whose block index is r / 5000. -/
theorem cls_cover (i : S100000x3.Idx) :
    ∃ t : Fin cfg1.N, (cfg1.win 7).flush t = true ∧ i ∈ ((cfg1.win 7).blk t).view.set := by
  have hi0 : (i 0).val < 100000 := (i 0).isLt
  have hi1 : (i 1).val < 3 := (i 1).isLt
  obtain ⟨t, ht⟩ := cls_rows_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_cls_block]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 3 ≤ (i 1).val ∧ (i 1).val < win1_7.index t (1 : Fin 2) * 3 + 3; omega

/-- Region 1's output array after its run: the classifier of the layer of its entry arrays. -/
theorem arr1 (c : Dev nD) :
    (dat1 (F := Ideal) V c).arrAt 7 cfg1.N
      = Cert.Sage.cls (Cert.Sage.layer (V c main_v38) (V c main_v26) (V c main_arg5) (V c main_arg7) (fun q => V c main_v39 (ix2 0 q)))
          (V c main_arg8) (fun q => V c main_v40 (ix2 0 q)) :=
  (dat1 (F := Ideal) V c).arrAt_eq_of_cover 7 _ (fun t _ => cls_flushed V c t) cls_cover

end Cert.KernelNet

end
-- ==== Proof.KernelValue.lean ====
/-
  The idealized kernel program's result array, as the network of the specification over the kernel
  program's neighbour mean.

  The result buffer ends at region 1's output array after its write-backs: the classifier of the second layer
  of region 1's entry arrays. Those are the second layer's weights and biases as launched, region 0's output
  array, and the neighbour mean of it; region 0's output array is the first layer of ITS entry arrays: the
  features, the first layer's weights and bias, and the features' neighbour mean. A bias vector reshaped to
  one row, read at (0, q), is the vector's entry q.
-/
import proofs.«121714_j30081950941187_1_alg».proof.Proof.KernelRun
import proofs.«121714_j30081950941187_1_alg».proof.Proof.KernelEntry
import proofs.«121714_j30081950941187_1_alg».proof.Proof.KernelArrays
import proofs.«121714_j30081950941187_1_alg».proof.Proof.SageSpec
import Idealize.ShloMosaic.Lib.Pipeline.Value
import Idealize.ShloMosaic.Lib.ValueIdx

set_option maxRecDepth 16384

noncomputable section

namespace Cert.KernelNet

open Cert.KernelIdeal Cert.KernelIdeal.Gen Idealize.ShloMosaic Idealize.ShloMosaic.TcCoe Idealize.ShloMosaic.ValueIdx Idealize.SL.Sem

/-- A vector of 128 reshaped to one row, at column `q`. -/
theorem row128_apply (b : (⟨S128, .f32⟩ : BufTy).Contents (Elt Ideal)) (q : Fin 128) :
    shapeCast S1x128 b shapeCasts_S128_S1x128 (ix2 0 q) = b (ix1 q) :=
  shapeCast_apply b shapeCasts_S128_S1x128 (ix2 0 q) (ix1 q)
    (by rewrite [Shape.rowMajor_val_one, Shape.rowMajor_val_two]; show q.val = 0 * 128 + q.val; omega)

/-- A vector of 3 reshaped to one row, at column `q`. -/
theorem row3_apply (b : (⟨S3, .f32⟩ : BufTy).Contents (Elt Ideal)) (q : Fin 3) :
    shapeCast S1x3 b shapeCasts_S3_S1x3 (ix2 0 q) = b (ix1 q) :=
  shapeCast_apply b shapeCasts_S3_S1x3 (ix2 0 q) (ix1 q)
    (by rewrite [Shape.rowMajor_val_one, Shape.rowMajor_val_two]; show q.val = 0 * 3 + q.val; omega)

variable (m : (ℓ : Loc nD τ sig) → Buf (Elt Ideal) ℓ) (ρ : Dev nD → PrngReg)

/-- Region 0's output array: the first layer of the features and their neighbour mean. -/
theorem hidden_eq (c : Dev nD) :
    (dat0 (F := Ideal) (V1 m ρ) c).arrAt 5 cfg0.N
      = Cert.Sage.layer (meanK (F := Ideal) (m ((c : Thread nD τ).loc main_arg0)) (m ((c : Thread nD τ).loc main_arg1)))
          (m ((c : Thread nD τ).loc main_arg0)) (m ((c : Thread nD τ).loc main_arg2)) (m ((c : Thread nD τ).loc main_arg4))
          (fun q => m ((c : Thread nD τ).loc main_arg3) (ix1 q)) := by
  have hb : (fun q : Fin 128 => shapeCast S1x128 (m ((c : Thread nD τ).loc main_arg3)) shapeCasts_S128_S1x128 (ix2 0 q))
      = fun q => m ((c : Thread nD τ).loc main_arg3) (ix1 q) := funext fun q => row128_apply _ q
  rw [arr0 (V1 m ρ) c, V1_mean, V1_x, V1_wl, V1_wr, V1_bias, hb]

/-- The result buffer's final contents: the network over the kernel program's neighbour mean. -/
theorem result_eq (c : Dev nD) :
    W4 m ρ c (Proc.devRef .tc main_v41)
      = Cert.Sage.net (fun x e => meanK (F := Ideal) x e)
          (m ((c : Thread nD τ).loc main_arg0)) (m ((c : Thread nD τ).loc main_arg1))
          (m ((c : Thread nD τ).loc main_arg2)) (fun q => m ((c : Thread nD τ).loc main_arg3) (ix1 q)) (m ((c : Thread nD τ).loc main_arg4))
          (m ((c : Thread nD τ).loc main_arg5)) (fun q => m ((c : Thread nD τ).loc main_arg6) (ix1 q)) (m ((c : Thread nD τ).loc main_arg7))
          (m ((c : Thread nD τ).loc main_arg8)) (fun q => m ((c : Thread nD τ).loc main_arg9) (ix1 q)) := by
  have hb : (fun q : Fin 128 => shapeCast S1x128 (m ((c : Thread nD τ).loc main_arg6)) shapeCasts_S128_S1x128 (ix2 0 q))
      = fun q => m ((c : Thread nD τ).loc main_arg6) (ix1 q) := funext fun q => row128_apply _ q
  have hc : (fun q : Fin 3 => shapeCast S1x3 (m ((c : Thread nD τ).loc main_arg9)) shapeCasts_S3_S1x3 (ix2 0 q))
      = fun q => m ((c : Thread nD τ).loc main_arg9) (ix1 q) := funext fun q => row3_apply _ q
  refine (W4_arr m ρ c 7).trans ?_
  rw [arr1 (V3 m ρ) c, V3_mean, V3_h1, V3_wl, V3_wr, V3_wc, V3_bias, V3_cbias, hidden_eq, hb, hc]
  rfl

end Cert.KernelNet

end
-- ==== Proof.MeanBridge.lean ====
/-
  The two programs' neighbour means are one function.

  Both gather the features along the edges and sum them per destination node by the same operations, and both
  count each node's in-degree by the same operations; the kernel program multiplies the sums by the reciprocal
  of the count clamped below by one, the reference divides by the clamped count. The clamped count is at least
  one, hence not zero, and off zero a quotient of extended reals is the product with the inverse: the two
  agree at every index, whatever the sums and counts are.
-/
import proofs.«121714_j30081950941187_1_alg».proof.Proof.KernelHost
import proofs.«121714_j30081950941187_1_alg».proof.Proof.Gen.ReferenceIdeal.Read
import proofs.«121714_j30081950941187_1_alg».proof.Proof.SageSpec
import Idealize.ShloMosaic.Lib.Pipeline.Value
import Idealize.ShloMosaic.Lib.ValueIdx

noncomputable section

namespace Cert.KernelNet

open Cert.KernelIdeal Cert.KernelIdeal.Gen Idealize.ShloMosaic Idealize.ShloMosaic.ValueIdx

/-- The per-node sums are the reference's stage: the same operations on the same operands. -/
theorem agg_eq (x : (⟨S100000x128, .f32⟩ : BufTy).Contents (Elt Ideal)) (e : (⟨S2x1000000, .i32⟩ : BufTy).Contents (Elt Ideal)) :
    aggOf (F := Ideal) x e = Cert.ReferenceIdeal.Read.val_main_v13 (F := Ideal) x e := rfl

/-- The in-degrees are the reference's stage. -/
theorem count_eq (e : (⟨S2x1000000, .i32⟩ : BufTy).Contents (Elt Ideal)) :
    countOf (F := Ideal) e = Cert.ReferenceIdeal.Read.val_main_v17 (F := Ideal) e := rfl

/-- The vector of ones holds the real number one at every node. -/
theorem nodeOnes_apply (i : S100000.Idx) : nodeOnes (F := Ideal) i = 1 := by
  unfold nodeOnes
  rw [broadcastInDim_apply _ bcast_S_S100000 _ i ix0 (fun a => a.elim0)]
  exact Cert.Sage.one_word

/-- A quotient of two vectors clamped: at an index, the quotient of the entries. -/
theorem div_max_apply (o c : FVec Ideal S100000 .f32) (i : S100000.Idx) :
    Host.divf (F := Ideal) o (maximumf (F := Ideal) c o) i = Ideal.div (o i) (max (c i) (o i)) := rfl

/-- The reciprocal-count column at node `r`: one over the in-degree clamped below by one. -/
theorem invCount_apply (e : (⟨S2x1000000, .i32⟩ : BufTy).Contents (Elt Ideal)) (r : Fin 100000) :
    invCount (F := Ideal) e (ix2 r 0) = Ideal.div 1 (max (countOf (F := Ideal) e (ix1 r)) 1) := by
  unfold invCount
  generalize countOf (F := Ideal) e = C
  refine (shapeCast_apply _ shapeCasts_S100000_S100000x1 (ix2 r 0) (ix1 r)
    (by rewrite [Shape.rowMajor_val_one, Shape.rowMajor_val_two]; show r.val = r.val * 1 + 0; omega)).trans ?_
  rw [div_max_apply, nodeOnes_apply]

/-- The scaled sums at an index: the sum's entry times the column's entry of that node. -/
theorem scaled_apply (A : FVec Ideal S100000x128 .f32) (D : FVec Ideal S100000x1 .f32)
    (r : Fin 100000) (q : Fin 128) :
    mulf (F := Ideal) A (broadcastInDim S100000x128 ![0, 1] bcast_S100000x1_S100000x128_0_1 D) (ix2 r q) = A (ix2 r q) * D (ix2 r 0) := by
  show A (ix2 r q) * broadcastInDim S100000x128 ![0, 1] bcast_S100000x1_S100000x128_0_1 D (ix2 r q) = _
  refine congrArg (A (ix2 r q) * ·) ?_
  exact broadcastInDim_apply _ bcast_S100000x1_S100000x128_0_1 D (ix2 r q) (ix2 r 0) (fun a => match a with
    | ⟨0, _⟩ => by show r.val = if (100000 : Nat) = 1 then 0 else r.val; rw [if_neg (by decide)]
    | ⟨1, _⟩ => by show 0 = if (1 : Nat) = 1 then 0 else q.val; rw [if_pos rfl])

/-- The reference's quotient stage at an index, over its sums and counts as variables. -/
theorem ref_quot (A Cn : EReal) :
    FloatOps.hostDivf (F := Ideal) (φ := .f32) A (FloatOps.maximumf (F := Ideal) (φ := .f32) Cn (FloatOps.ofBits .f32 0x3F800000#32))
      = Ideal.div A (max Cn 1) := by
  show Ideal.div A (max Cn (Ideal.ofBits .f32 0x3F800000#32)) = _
  rw [Cert.Sage.one_word]

/-- The kernel program's neighbour mean is the reference's, as arrays. -/
theorem mean_eq (x : (⟨S100000x128, .f32⟩ : BufTy).Contents (Elt Ideal)) (e : (⟨S2x1000000, .i32⟩ : BufTy).Contents (Elt Ideal)) :
    meanK (F := Ideal) x e = Cert.ReferenceIdeal.Read.val_main_v22 (F := Ideal) x e := by
  funext i
  obtain ⟨r, q, rfl⟩ : ∃ (r : Fin 100000) (q : Fin 128), i = ix2 r q := ⟨i 0, i 1, eq_ix2 i⟩
  have hl : meanK (F := Ideal) x e (ix2 r q) = aggOf (F := Ideal) x e (ix2 r q) * invCount (F := Ideal) e (ix2 r 0) := by
    unfold meanK
    exact scaled_apply _ _ r q
  have hi : Cert.ReferenceIdeal.Read.idx_main_v20 (Cert.ReferenceIdeal.Read.idx_main_v21 (ix2 r q)) = ix1 r :=
    funext fun a => Fin.ext (by match a with | ⟨0, _⟩ => rfl)
  have hr : Cert.ReferenceIdeal.Read.val_main_v22 (F := Ideal) x e (ix2 r q)
      = Ideal.div (Cert.ReferenceIdeal.Read.val_main_v13 (F := Ideal) x e (ix2 r q)) (max (Cert.ReferenceIdeal.Read.val_main_v17 (F := Ideal) e (ix1 r)) 1) := by
    rw [Cert.ReferenceIdeal.Read.val_main_v22_apply, Cert.ReferenceIdeal.Read.val_main_v21_apply, Cert.ReferenceIdeal.Read.val_main_v20_apply,
      Cert.ReferenceIdeal.Read.val_main_v19_apply, Cert.ReferenceIdeal.Read.val_main_v18_apply, Cert.ReferenceIdeal.Read.val_main_cst_3_apply, hi]
    exact ref_quot _ _
  rw [hl, hr, invCount_apply, agg_eq, count_eq]
  exact Cert.Sage.mul_inv_count _ _

end Cert.KernelNet

end
-- ==== Proof.RefNet.lean ====
/-
  The reference program's result is the network of the specification, over the reference's own neighbour mean.

  Stage by stage: a host matrix product read at an index is the sum over the contracted axis; a bias added
  through two broadcasts is the bias entry of the channel; the reference adds the bias BEFORE the root
  product, which differs from the specification's order only by commuting two summands; the clamp below by
  zero is a maximum with the broadcast zero word. The second layer's neighbour mean is the first layer's
  operator applied to the first layer's output.
-/
import proofs.«121714_j30081950941187_1_alg».proof.Proof.Gen.ReferenceIdeal.Read
import proofs.«121714_j30081950941187_1_alg».proof.Proof.SageSpec

noncomputable section

namespace Cert.RefNet

open Cert.ReferenceIdeal Cert.ReferenceIdeal.Read Idealize.ShloMosaic Idealize.ShloMosaic.ValueIdx

/-- The first clamped stage is one layer over the neighbour mean of the input features and the input features
    themselves: at node r and channel q it is max ((Σₖ mean[r,k]·wl[k,q] + b[q]) + Σₖ x[r,k]·wr[k,q]) 0, and the
    two outer summands commute past the bias. -/
theorem first_layer (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v29 (F := Ideal) x0 x1 x2 x3 x4
      = Cert.Sage.layer (val_main_v22 (F := Ideal) x0 x1) x0 x2 x4 (fun q => x3 (ix1 q)) := by
  funext i
  obtain ⟨r, q, rfl⟩ : ∃ (r : Fin 100000) (q : Fin 128), i = ix2 r q := ⟨i 0, i 1, eq_ix2 i⟩
  rw [Cert.Sage.layer_ix2, val_main_v29_apply, val_main_v28_apply, val_main_v26_apply, val_main_v23_apply, val_main_v25_apply,
    val_main_v24_apply, val_main_v27_apply, val_main_call0_v0_apply, val_main_call0_cst_apply]
  generalize val_main_v22 (F := Ideal) x0 x1 = y
  have el1 : ∀ k : Fin 128, lidx_main_v23 (ix2 r q) k = ix2 r k := fun k =>
    funext fun a => Fin.ext (by match a with | ⟨0, _⟩ => rfl | ⟨1, _⟩ => rfl)
  have er1 : ∀ k : Fin 128, ridx_main_v23 (ix2 r q) k = ix2 k q := fun k =>
    funext fun a => Fin.ext (by match a with | ⟨0, _⟩ => rfl | ⟨1, _⟩ => rfl)
  have el2 : ∀ k : Fin 128, lidx_main_v27 (ix2 r q) k = ix2 r k := fun k =>
    funext fun a => Fin.ext (by match a with | ⟨0, _⟩ => rfl | ⟨1, _⟩ => rfl)
  have er2 : ∀ k : Fin 128, ridx_main_v27 (ix2 r q) k = ix2 k q := fun k =>
    funext fun a => Fin.ext (by match a with | ⟨0, _⟩ => rfl | ⟨1, _⟩ => rfl)
  have eb : idx_main_v24 (idx_main_v25 (ix2 r q)) = ix1 q :=
    funext fun a => Fin.ext (by match a with | ⟨0, _⟩ => rfl)
  simp only [el1, er1, el2, er2, eb, Ideal.addf_def, Ideal.maximumf_def, Ideal.ofBits_def, Cert.Sage.layerAt]
  rw [add_right_comm]

/-- The second neighbour mean is the first one's operator (gather along the edges, sum per destination node,
    divide by the clamped in-degree) applied to the first layer's output: the two are the same operations on the
    same edge list, so the equation holds for every float family. -/
theorem second_mean {F : FTy → Type} [FloatOps F] (x0 : (⟨S100000x128, .f32⟩ : BufTy).Contents (Elt F))
    (x1 : (⟨S2x1000000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) :
    val_main_v48 (F := F) x0 x1 x2 x3 x4
      = val_main_v22 (F := F) (val_main_v29 (F := F) x0 x1 x2 x3 x4) x1 := rfl

/-- The second clamped stage is one layer over the second neighbour mean and the first layer's output, with the
    second layer's weights and bias; the same commutation of the bias past the root product as in the first. -/
theorem second_layer (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v55 (F := Ideal) x0 x1 x2 x3 x4 x5 x6 x7
      = Cert.Sage.layer (val_main_v48 (F := Ideal) x0 x1 x2 x3 x4) (val_main_v29 (F := Ideal) x0 x1 x2 x3 x4) x5 x7
          (fun q => x6 (ix1 q)) := by
  funext i
  obtain ⟨r, q, rfl⟩ : ∃ (r : Fin 100000) (q : Fin 128), i = ix2 r q := ⟨i 0, i 1, eq_ix2 i⟩
  rw [Cert.Sage.layer_ix2, val_main_v55_apply, val_main_v54_apply, val_main_v52_apply, val_main_v49_apply, val_main_v51_apply,
    val_main_v50_apply, val_main_v53_apply, val_main_call1_v0_apply, val_main_call1_cst_apply]
  generalize val_main_v48 (F := Ideal) x0 x1 x2 x3 x4 = a
  generalize val_main_v29 (F := Ideal) x0 x1 x2 x3 x4 = h
  have el1 : ∀ k : Fin 128, lidx_main_v49 (ix2 r q) k = ix2 r k := fun k =>
    funext fun a => Fin.ext (by match a with | ⟨0, _⟩ => rfl | ⟨1, _⟩ => rfl)
  have er1 : ∀ k : Fin 128, ridx_main_v49 (ix2 r q) k = ix2 k q := fun k =>
    funext fun a => Fin.ext (by match a with | ⟨0, _⟩ => rfl | ⟨1, _⟩ => rfl)
  have el2 : ∀ k : Fin 128, lidx_main_v53 (ix2 r q) k = ix2 r k := fun k =>
    funext fun a => Fin.ext (by match a with | ⟨0, _⟩ => rfl | ⟨1, _⟩ => rfl)
  have er2 : ∀ k : Fin 128, ridx_main_v53 (ix2 r q) k = ix2 k q := fun k =>
    funext fun a => Fin.ext (by match a with | ⟨0, _⟩ => rfl | ⟨1, _⟩ => rfl)
  have eb : idx_main_v50 (idx_main_v51 (ix2 r q)) = ix1 q :=
    funext fun a => Fin.ext (by match a with | ⟨0, _⟩ => rfl)
  simp only [el1, er1, el2, er2, eb, Ideal.addf_def, Ideal.maximumf_def, Ideal.ofBits_def, Cert.Sage.layerAt]
  rw [add_right_comm]

/-- The last stage is the classifier over the second layer's output: at node r and class q it is
    Σₖ h[r,k]·wc[k,q] + bc[q], the bias reaching every node through two broadcasts. -/
theorem classifier (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128x3, .f32⟩ : BufTy).Contents (Elt Ideal))
    (x9 : (⟨S3, .f32⟩ : BufTy).Contents (Elt Ideal)) :
    val_main_v59 (F := Ideal) x0 x1 x2 x3 x4 x5 x6 x7 x8 x9
      = Cert.Sage.cls (val_main_v55 (F := Ideal) x0 x1 x2 x3 x4 x5 x6 x7) x8 (fun q => x9 (ix1 q)) := by
  funext i
  obtain ⟨r, q, rfl⟩ : ∃ (r : Fin 100000) (q : Fin 3), i = ix2 r q := ⟨i 0, i 1, eq_ix2 i⟩
  rw [Cert.Sage.cls_ix2, val_main_v59_apply, val_main_v56_apply, val_main_v58_apply, val_main_v57_apply]
  generalize val_main_v55 (F := Ideal) x0 x1 x2 x3 x4 x5 x6 x7 = h
  have el : ∀ k : Fin 128, lidx_main_v56 (ix2 r q) k = ix2 r k := fun k =>
    funext fun a => Fin.ext (by match a with | ⟨0, _⟩ => rfl | ⟨1, _⟩ => rfl)
  have er : ∀ k : Fin 128, ridx_main_v56 (ix2 r q) k = ix2 k q := fun k =>
    funext fun a => Fin.ext (by match a with | ⟨0, _⟩ => rfl | ⟨1, _⟩ => rfl)
  have eb : idx_main_v57 (idx_main_v58 (ix2 r q)) = ix1 q :=
    funext fun a => Fin.ext (by match a with | ⟨0, _⟩ => rfl)
  simp only [el, er, eb, Ideal.addf_def, Cert.Sage.clsAt]

/-- The reference's result array is the network, with the reference's neighbour-mean stage as the operator. -/
theorem ref_is_net (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128x3, .f32⟩ : BufTy).Contents (Elt Ideal))
    (x9 : (⟨S3, .f32⟩ : BufTy).Contents (Elt Ideal)) :
    val_main_v59 (F := Ideal) x0 x1 x2 x3 x4 x5 x6 x7 x8 x9
      = Cert.Sage.net (fun x e => val_main_v22 (F := Ideal) x e) x0 x1 x2 (fun q => x3 (ix1 q)) x4 x5 (fun q => x6 (ix1 q)) x7 x8
          (fun q => x9 (ix1 q)) := by
  simp only [Cert.Sage.net]
  rw [classifier, second_layer, second_mean, first_layer]

end Cert.RefNet

end
-- ==== Proof.lean ====
/-
  Two GraphSAGE layers and a linear classifier over 100000 nodes and 1000000 edges: a program of two tiled
  kernel regions (each a row-tiled pair of matrix products plus bias, clamped below by zero; the second followed
  by the classifier product) with the edge gather / per-node sums on the host, against a reference that does
  everything on the host.

  Over the extended reals both compute, per layer, max (mean·Wl + x·Wr + b) 0 at every node and channel and
  then h·Wc + bc. They differ in three ways, none of which changes a value: the kernel rounds its products'
  operands to a narrower float format (the identity on the extended reals); the reference adds the bias before
  the root product (addition is commutative and associative); and the kernel program scales the per-node sums
  by the reciprocal of the in-degree clamped below by one where the reference divides by the clamped in-degree
  (the clamped in-degree is at least one, so never zero, and off zero a quotient is the product with the
  inverse: no finiteness of the inputs is used). Row by row a tile's matrix product is the whole array's, and
  the tiles cover the rows, so each region's output array is one function of what the region is entered with.

  The three frames: the two kernel programs' are the generated frame certificates; the reference's is its
  generated run with the result dropped. The idealization rewrote no operation, so `preserves` is trivial.
-/
import proofs.«121714_j30081950941187_1_alg».proof.Defs
import proofs.«121714_j30081950941187_1_alg».proof.Proof.Gen.Kernel
import proofs.«121714_j30081950941187_1_alg».proof.Proof.Gen.Kernel.Skeleton
import proofs.«121714_j30081950941187_1_alg».proof.Proof.Gen.Kernel.Launch
import proofs.«121714_j30081950941187_1_alg».proof.Proof.Gen.Kernel.Points
import proofs.«121714_j30081950941187_1_alg».proof.Proof.Gen.Kernel.Frame
import proofs.«121714_j30081950941187_1_alg».proof.Proof.Gen.KernelIdeal
import proofs.«121714_j30081950941187_1_alg».proof.Proof.Gen.KernelIdeal.Skeleton
import proofs.«121714_j30081950941187_1_alg».proof.Proof.Gen.KernelIdeal.Launch
import proofs.«121714_j30081950941187_1_alg».proof.Proof.Gen.KernelIdeal.Points
import proofs.«121714_j30081950941187_1_alg».proof.Proof.Gen.KernelIdeal.Frame
import proofs.«121714_j30081950941187_1_alg».proof.Proof.Gen.ReferenceIdeal
import proofs.«121714_j30081950941187_1_alg».proof.Proof.Gen.Pre_finite_inputs
import proofs.«121714_j30081950941187_1_alg».proof.Proof.Gen.ReferenceIdeal.Run
import proofs.«121714_j30081950941187_1_alg».proof.Proof.Gen.ReferenceIdeal.Read
import proofs.«121714_j30081950941187_1_alg».proof.Proof.KernelValue
import proofs.«121714_j30081950941187_1_alg».proof.Proof.MeanBridge
import proofs.«121714_j30081950941187_1_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two neighbour-mean operators are one function. -/
theorem mean_fun_eq :
    (fun x e => Cert.ReferenceIdeal.Read.val_main_v22 (F := Ideal) x e) = (fun x e => Cert.KernelNet.meanK (F := Ideal) x e) :=
  funext fun x => funext fun e => (Cert.KernelNet.mean_eq x e).symm

/-- Both idealized programs end with the network of the specification of the arguments: the kernel program by
    its two regions' arrays, the reference stage by stage, their neighbour means one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono (fun r h c => ⟨(h c).1.trans (Cert.KernelNet.result_eq m ρ c), (h c).2⟩)
      (Cert.KernelIdeal.ResultRun.run (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v59_eq, Cert.RefNet.ref_is_net, h0, h1, h2, h3, h4, h5, h6, h7, h8, h9, mean_fun_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
